-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S100000x16 : Shape := ⟨2, ![100000, 16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x16 .f32) (main_arg1 : FVec F S100000x16 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S1024x16 : Shape := ⟨2, ![1024, 16]⟩
abbrev S100000x16 : Shape := ⟨2, ![100000, 16]⟩
abbrev S1024x100000 : Shape := ⟨2, ![1024, 100000]⟩
abbrev S4096x16 : Shape := ⟨2, ![4096, 16]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩
abbrev S4096x1 : Shape := ⟨2, ![4096, 1]⟩
abbrev S1024x18 : Shape := ⟨2, ![1024, 18]⟩
abbrev S4096x18 : Shape := ⟨2, ![4096, 18]⟩

abbrev nBuf : Space → Nat
  | .hbm => 3
  | .vmem => 5
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S1024x100000, .f32⟩
  | .local _ .vmem, ⟨0, _⟩ => ⟨S1024x16, .f32⟩
  | .local _ .vmem, ⟨1, _⟩ => ⟨S4096x16, .f32⟩
  | .local _ .vmem, ⟨2, _⟩ => ⟨S4096x16, .f32⟩
  | .local _ .vmem, ⟨3, _⟩ => ⟨S1024x4096, .f32⟩
  | .local _ .vmem, ⟨4, _⟩ => ⟨S1024x4096, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x16_S1024x16_0_0 : ∀ a, (![0, 0] : Fin 2 → Nat) a + S1024x16.size a ≤ S1024x16.size a
  h_S1024x16 : 0 < S1024x16.numel
  inb_S4096x16_S4096x16_0_0 : ∀ a, (![0, 0] : Fin 2 → Nat) a + S4096x16.size a ≤ S4096x16.size a
  h_S4096x16 : 0 < S4096x16.numel
  reduces_S1024x16_S1024 : S1024x16.Reduces [1] S1024
  shapeCasts_S1024_S1024x1 : S1024.ShapeCasts S1024x1
  reduces_S4096x16_S4096 : S4096x16.Reduces [1] S4096
  shapeCasts_S4096_S4096x1 : S4096.ShapeCasts S4096x1
  concatenates_S1024x16_S1024x1_S1024x1_S1024x18_d1 : Shape.Concatenates [S1024x16, S1024x1, S1024x1] S1024x18 1
  concatenates_S4096x16_S4096x1_S4096x1_S4096x18_d1 : Shape.Concatenates [S4096x16, S4096x1, S4096x1] S4096x18 1
  inb_S1024x4096_S1024x4096_0_0 : ∀ a, (![0, 0] : Fin 2 → Nat) a + S1024x4096.size a ≤ S1024x4096.size a
  h_S1024x4096 : 0 < S1024x4096.numel
  dot_S1024x18_S4096x18_S1024x4096_1_1_0_0_n_n_wf : DotDims.WF S1024x18 S4096x18 S1024x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S1024x16.size a
  hwx0_0 : ∀ i : grid0.Coords, EltTy.bits .f32 = 32 ∨ (Rect.block (s := S1024x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x16.size a < S100000x16.size a
  hwx0_1 : ∀ i : grid0.Coords, EltTy.bits .f32 = 32 ∨ (Rect.unit (s := S100000x16) (fun a => cc0_transform_1 i a * S4096x16.size a) (fun a => (Pipeline.Clip.of (cc0_transform_1 i a) (S4096x16.size a) (S100000x16.size a)).extent (S4096x16.size a)) fun a => Pipeline.Clip.inb (Pipeline.Clip.ok_of (hstart0_1 i a))).WholeWords (EltTy.packing .f32)
  hwxs0_1 : ∀ i : grid0.Coords, EltTy.bits .f32 = 32 ∨ (Rect.unit (s := S4096x16) (fun _ => 0) (fun a => (Pipeline.Clip.of (cc0_transform_1 i a) (S4096x16.size a) (S100000x16.size a)).extent (S4096x16.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x4096.size a < S1024x100000.size a
  hwx0_2 : ∀ i : grid0.Coords, EltTy.bits .f32 = 32 ∨ (Rect.unit (s := S1024x100000) (fun a => cc0_transform_2 i a * S1024x4096.size a) (fun a => (Pipeline.Clip.of (cc0_transform_2 i a) (S1024x4096.size a) (S1024x100000.size a)).extent (S1024x4096.size a)) fun a => Pipeline.Clip.inb (Pipeline.Clip.ok_of (hstart0_2 i a))).WholeWords (EltTy.packing .f32)
  hwxs0_2 : ∀ i : grid0.Coords, EltTy.bits .f32 = 32 ∨ (Rect.unit (s := S1024x4096) (fun _ => 0) (fun a => (Pipeline.Clip.of (cc0_transform_2 i a) (S1024x4096.size a) (S1024x100000.size a)).extent (S1024x4096.size a)) fun a => (Nat.zero_add _).trans_le (Pipeline.Clip.extent_le (Pipeline.Clip.ok_of (hstart0_2 i a)))).WholeWords (EltTy.packing .f32)

variable [Facts₀]

def dot_S1024x18_S4096x18_S1024x4096_1_1_0_0_n_n : DotDims S1024x18 S4096x18 S1024x4096 where
  lhsContracting := [1]
  rhsContracting := [1]
  lhsNonContracting := [0]
  rhsNonContracting := [0]
  lhsBatch := []
  rhsBatch := []
  wf := dot_S1024x18_S4096x18_S1024x4096_1_1_0_0_n_n_wf

abbrev win0_0 : Pipeline.Window sig grid0 :=
  Pipeline.Window.ofSpec (Memref.whole main_arg0) S1024x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S4096x16.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1024x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x16 : Shape := ⟨2, ![1024, 16]⟩
abbrev S100000x16 : Shape := ⟨2, ![100000, 16]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S16x100000 : Shape := ⟨2, ![16, 100000]⟩
abbrev S1024x100000x1 : Shape := ⟨3, ![1024, 100000, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S1024x16, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x16, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S1024x100000, .f32⟩
  | .hbm, ⟨11, _⟩ => ⟨S1024x100000, .f32⟩
  | .hbm, ⟨12, _⟩ => ⟨S1024x100000, .f32⟩
  | .hbm, ⟨13, _⟩ => ⟨S16x100000, .f32⟩
  | .hbm, ⟨14, _⟩ => ⟨S1024x100000, .f32⟩
  | .hbm, ⟨15, _⟩ => ⟨S_, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024x100000, .f32⟩
  | .hbm, ⟨21, _⟩ => ⟨S1024x100000, .f32⟩
  | .hbm, ⟨22, _⟩ => ⟨S1024x100000, .f32⟩
  | .hbm, ⟨23, _⟩ => ⟨S_, .f32⟩
  | .hbm, ⟨24, _⟩ => ⟨S1024, .f32⟩
  | .hbm, ⟨25, _⟩ => ⟨S1024x100000, .f32⟩
  | .hbm, ⟨26, _⟩ => ⟨S1024x100000x1, .f32⟩
  | .hbm, ⟨27, _⟩ => ⟨S_, .f32⟩
  | .hbm, ⟨28, _⟩ => ⟨S1024x100000, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S1024x16_S1024_d1 : S1024x16.ReducesTo [1] S1024
  h_S_ : 0 < S_.numel
  bcast_S1024_S1024x1_0 : S1024.BroadcastsInDim S1024x1 (![0] : Fin 1 → Fin S1024x1.rank)
  reducesTo_S100000x16_S100000_d1 : S100000x16.ReducesTo [1] S100000
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x16_S16x100000_1_0 : S100000x16.Transposes [1, 0] S16x100000
  bcast_S_S1024x100000 : S_.BroadcastsInDim S1024x100000 (![] : Fin 0 → Fin S1024x100000.rank)
  reducesTo_S1024x100000_S1024_d1 : S1024x100000.ReducesTo [1] S1024
  shapeCasts_S1024x100000_S1024x100000x1 : S1024x100000.ShapeCasts S1024x100000x1
  reducesTo_S1024x100000x1_S1024x100000_d2 : S1024x100000x1.ReducesTo [2] S1024x100000
  dot_S1024x16_S16x100000_S1024x100000_1_0_0_1_n_n_wf : DotDims.WF S1024x16 S16x100000 S1024x100000 [1] [0] [0] [1] [] []

variable [Facts₀]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf

class Facts : Prop extends Facts₀ where

variable [Facts]
-- ==== Proof.KernelFrame.lean ====
/-
  The frame of the program at the word-level instance: every weakly fair run of @main terminates, nothing
  faults, and the two argument arrays end as they began.

  The program is one pipelined region over 25 grid points with three windows: the queries (whole array, fetched
  once, one staging buffer), the prototypes in blocks of 4096 rows (the last block overhangs the array, so its
  fetch is cut and the buffer's tail rows hold words nothing names), and the result in blocks of 4096 columns
  (the last write-back cut likewise). The body loads the two input buffers whole and stores a payload computed
  from them into the result's buffer whole.

  At the word level the matrix product is opaque in its whole operands, so what the body stores depends on the
  unnamed tail of the prototypes' buffer and no exact contents can be stated for the result's buffer. The frame
  claim reads nothing of the result, so the result's window is FORGOTTEN: it is handed to the body at arbitrary
  contents and taken back at arbitrary contents. The two input windows are only read: the queries' buffer holds
  its block at every point, the prototypes' buffer its block on the rows inside the array.
-/
import proofs.«168494_g41042707480709_retrytranche2_1909_4_alg».proof.Defs
import proofs.«168494_g41042707480709_retrytranche2_1909_4_alg».proof.Proof.Gen.Kernel
import proofs.«168494_g41042707480709_retrytranche2_1909_4_alg».proof.Proof.Gen.Kernel.Skeleton
import proofs.«168494_g41042707480709_retrytranche2_1909_4_alg».proof.Proof.Gen.Kernel.Launch
import proofs.«168494_g41042707480709_retrytranche2_1909_4_alg».proof.Proof.Gen.Kernel.Points
import proofs.«168494_g41042707480709_retrytranche2_1909_4_alg».proof.Proof.Gen.Kernel.Frame
import proofs.«168494_g41042707480709_retrytranche2_1909_4_alg».proof.Proof.Gen.Pre_finite_inputs
import Idealize.ShloMosaic.Lib.Pipeline.Kit
import Idealize.ShloMosaic.Lib.Pipeline.Frame
import Idealize.ShloMosaic.Lib.Pipeline.FrameBody
import Idealize.ShloMosaic.Lib.Tactic

noncomputable section

/-! ## Whole memrefs accessed whole

A load through a whole memref at zero offsets and the memref's own extents reads what the memref reads, and an
unmasked store there leaves the memref reading the payload: the memref is some buffer seen through the identity. -/

namespace Cert.Kernel.FrameB.Whole

open Idealize.ShloMosaic

variable {sg : RefSig} {Val : EltTy → Type} {κ : Kind} {sp : Space} {s : Shape} {e : EltTy} {M : Memref sg κ sp s e}

theorem readAt_zero (h : M.IsWhole) {off : Fin s.rank → Nat} (hz : off = fun _ => 0)
    (inb : ∀ a, off a + s.size a ≤ s.size a) (f : M.view.ty.Contents Val) :
    M.view.readAt Val (Rect.unit off s.size inb).toLoadRect f = M.view.read Val f := by
  obtain ⟨b, rfl, rfl, rfl, hm⟩ := h; cases hm
  rw [Memref.readAt_unit_zero Val b hz inb f]
  simp only [Memref.view_whole, View.read_whole]

theorem read_write_zero (h : M.IsWhole) {off : Fin s.rank → Nat} (hz : off = fun _ => 0)
    (inb : ∀ a, off a + s.size a ≤ s.size a) (f : M.view.ty.Contents Val) (w : s.Idx → Val e) :
    M.view.read Val ((M.access (Rect.unit off s.size inb) : View sg κ _ _ _).write Val f w Finset.univ) = w := by
  obtain ⟨b, rfl, rfl, rfl, hm⟩ := h; cases hm
  rw [Memref.write_access_unit_zero_univ Val b hz inb f w]
  simp only [Memref.view_whole, View.read_whole]

end Cert.Kernel.FrameB.Whole

namespace Cert.Kernel.FrameB

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The windows the certificate says nothing of: the result's. -/
def forgets : Fin 3 → Bool := fun w => w.val == 2

/-- The proof data on core `c`: the arrays as the region finds them; after the body the queries' buffer at its
    block, the prototypes' buffer at its block on the rows inside the array (elsewhere a word nothing reads),
    the result's buffer at contents nothing names; the class invariant; full shares; nothing owed. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => win0_1.fill (grid0.coords t) (fun _ => Classical.arbitrary _) (Gen.iblk m c 1 t)
    | ⟨2, h⟩ => Pipeline.Dat.unnamed (cfg := cfg0) ⟨2, h⟩ t
  Φ _ := Pipeline.ΦA spec0 c
  q _ := fullShare
  owed _ := 0

/-! ## The kernel body -/

/-- The body on whole memrefs at any contents: the two inputs are loaded, the result's buffer is loaded (a value
    nothing uses) and then overwritten whole; the inputs' buffers are left as they were. -/
theorem sound_body (c : Dev nD) (E : Set ℕ) (i : grid0.Coords)
    (M0 : Memref sig .tc .vmem S1024x16 .f32) (h0 : M0.IsWhole)
    (M1 : Memref sig .tc .vmem S4096x16 .f32) (h1 : M1.IsWhole)
    (M2 : Memref sig .tc .vmem S1024x4096 .f32) (h2 : M2.IsWhole)
    (X0 : S1024x16.Idx → Elt F .f32) (X1 : S4096x16.Idx → Elt F .f32) (X2 : S1024x4096.Idx → Elt F .f32)
    (K : PUnit → sProp 𝕄) :
    iprop((owns (c : Thread nD τ) M0 fullShare X0 ∗ owns (c : Thread nD τ) M1 fullShare X1
            ∗ owns (c : Thread nD τ) M2 fullShare X2)
          ∗ (iprop(owns (c : Thread nD τ) M0 fullShare X0 ∗ owns (c : Thread nD τ) M1 fullShare X1
                  ∗ owns (c : Thread nD τ) M2 fullShare (Gen.k0_pay1 X0 X1)) -∗ K ⟨⟩))
      ⊢ wp frame (wpE (defs₀ (F := F)) Variants.none c none) E (cc0__lvq_block i M0 h0 M1 h1 M2 h2) K := by
  have hz : (![0, 0] : Fin 2 → Nat) = fun _ => 0 := funext fun a => by fin_cases a <;> rfl
  rw [Gen.cc0__lvq_block_eq_skeleton]; unfold Gen.cc0__lvq_block_skel
  simp only [Prog.lift, Prog.bind_op, Prog.bind_ret]
  unfold owns
  iintro ⟨⟨⟨%f0, %hf0, H0⟩, ⟨%f1, %hf1, H1⟩, ⟨%f2, %hf2, H2⟩⟩, Hk⟩
  sl_steps
  iapply Hk
  isplitl [H0]
  · iexists f0; isplitr; · ipureintro; exact hf0
    iexact H0
  isplitl [H1]
  · iexists f1; isplitr; · ipureintro; exact hf1
    iexact H1
  · iexists _; isplitr
    rotate_left
    · iexact H2
    · ipureintro
      rw [Whole.read_write_zero h2 hz, Whole.readAt_zero h0 hz, Whole.readAt_zero h1 hz, hf0, hf1]

/-! ## What the body finds and leaves -/

theorem forgets_0 : forgets 0 = false := rfl
theorem forgets_1 : forgets 1 = false := rfl
theorem forgets_2 : forgets 2 = true := rfl

/-- The prototypes' window is fetched at every point: its buffer holds the block on the rows the fetch fills
    and whatever it held (`d`) on the rest. -/
theorem before_1 (c : Dev nD) (t : Fin cfg0.N) (d) :
    (dats m 0 c).before (1 : Fin 3) t d = win0_1.fill (grid0.coords t) d (Gen.iblk m c 1 t) := by
  unfold Dat.before; rw [if_pos (Gen.fetch0_1 t)]; rfl

/-- What the proof data say the prototypes' buffer holds after the body, read on the rows a transfer moves, is
    the block. -/
theorem cut_after_1 (c : Dev nD) (t : Fin cfg0.N) :
    win0_1.cut (grid0.coords t) ((dats m 0 c).after (1 : Fin 3) t) = Gen.iblk m c 1 t := by
  dsimp only [dats]; exact win0_1.cut_fill _ _ _

/-! ## The body obligation -/

/-- At every point the body runs from the three current staging buffers back to them: the queries' buffer holds
    its block before and after; the prototypes' buffer holds its block on the rows the fetch filled and is left
    so; the result's buffer is taken at any contents and left at any. The invariant and what the core owes pass
    through untouched. -/
theorem body_obligation (c : Dev nD) :
    BodyObligationLoose (dats m 0 c) (defs₀ (F := F)) Variants.none () Set.univ forgets := fun t => by
  rw [Gen.bigSep_W0, Gen.bigSep_W0]
  simp only [forgets_0, forgets_1, forgets_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%X2, H2⟩⟩
  rw [Gen.before0_0_of m (dats m 0 c) rfl (fun _ => rfl) t d0, before_1 m c t d1]
  iapply (sound_body (F := F) c Set.univ (grid0.coords t)
    (stage0_0 (cfg0.slots t 0)) (hstage0_0 (cfg0.slots t 0))
    (stage0_1 (cfg0.slots t 1)) (hstage0_1 (cfg0.slots t 1))
    (stage0_2 (cfg0.slots t 2)) (hstage0_2 (cfg0.slots t 2))
    (Gen.iblk m c 0 t) (win0_1.fill (grid0.coords t) d1 (Gen.iblk m c 1 t)) X2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · -- the queries' buffer: the block, as the proof data say
    dsimp only [dats]
    iexact H0
  isplitl [H1]
  · -- the prototypes' buffer: on the rows a transfer moves, the block; elsewhere what it held
    iexists d1
    change _ ⊢ owns (c : Thread nD τ) (stage0_1 (cfg0.slots t 1)) fullShare
      (win0_1.fill (grid0.coords t) d1 (win0_1.cut (grid0.coords t) ((dats m 0 c).after (1 : Fin 3) t)))
    -- with the cut of the filled block rewritten to the block, the goal is the hypothesis itself
    rw [cut_after_1 m c t]
  · -- the result's buffer: whatever the body stored
    iexists _
    iexact H2

/-! ## The run -/

/-- At the compiled mesh, for any float values, from any memory whose counters are zero: every weakly fair run of
    @main terminates, and at the end each array stands in the proof data's relation to what it held at entry — for
    the two inputs, equality — read with the result's window forgotten. -/
theorem run_main :
    θ_run defs (onTc (τ := τ) (main (F := F))) (s₀ m ρ)
      (Pipeline.RDat.FramePost (cfgs 0) (fun c => (dats m 0 c).toRForget forgets) (Gen.V m)) :=
  Pipeline.RDat.θ_run_frame cfgs (0 : Fin 1) Gen.launch0 defs₀ Variants.none
    (fun c => (dats m 0 c).toRForget forgets) m ρ main
    (hbody := fun c => (body_obligation m c).toRForget)
    (hshare := fun c => ((dats m 0 c).toRForget forgets).share_full fun _ => rfl)
    (howed := fun _ _ => rfl)
    (V := Gen.V m) (hmain := Gen.hmain m Variants.none)
    (hA := fun _ _ => rfl) (hΦ := fun _ _ => rfl)

/-! ## The claim -/

/-- `Cert.frame_Kernel`: the run at the word-level instance, read at the two argument arrays, each an input
    window's array and so left at its entry contents, which are the launch's. -/
theorem frame : Cert.frame_Kernel := by
  intro m ρ _
  exact (θ_run defs _ _).mono
    (fun _ h c => ⟨(Pipeline.RDat.FramePost.arr_in h c (0 : Fin 3) rfl).trans (Gen.V_main_arg0 m c),
      (Pipeline.RDat.FramePost.arr_in h c (1 : Fin 3) rfl).trans (Gen.V_main_arg1 m c)⟩)
    (run_main (F := Bits) m ρ)

end Cert.Kernel.FrameB

end
-- ==== Proof.Spec.lean ====
/-
  The mathematics of the LVQ logits, stated once and over no program.

  For a batch row X and a prototype row P (sixteen entries each) the logit is minus the Euclidean distance,
  clamped from below:  −√(max(‖X‖² + ‖P‖² − 2·X·P, ε)).  One program spells the squared distance as the three-term
  expansion (`refEntry`); the other as ONE inner product of length eighteen of the augmented rows
  (−2·X, ‖X‖², 1) and (P, 1, ‖P‖²), and takes the root as m · m^(−1/2) (`kerEntry`).  Over the extended reals the two
  agree as soon as the rows hold real numbers: then every sum is a real sum, the augmented inner product regroups
  to the expansion by distributivity, the clamp keeps the radicand m at or above ε ≥ 0, and for a real m ≥ 0
  m · (√m)⁻¹ = √m (at m = 0 the extended product 0 · ⊤ is 0 = √0).
-/
import Idealize.ShloMosaic.PureOps.Ideal
import Idealize.ShloMosaic.PureOps.Ideal.Laws
import Idealize.ShloMosaic.Lib.ValueIdx

noncomputable section

namespace Cert.Lvq

open Idealize.ShloMosaic

/-! ## The literals the two programs spell -/

/-- The pattern of 1.0 denotes the real 1. -/
theorem ofBits_one : Ideal.ofBits .f32 0x3F800000#32 = 1 := by
  simp [Ideal.ofBits, Ideal.ieee, -EReal.coe_mul]; norm_num

/-- The pattern of 2.0 denotes the real 2. -/
theorem ofBits_two : Ideal.ofBits .f32 0x40000000#32 = ((2 : ℝ) : EReal) := by
  simp [Ideal.ofBits, Ideal.ieee, -EReal.coe_mul]; norm_num

/-- The pattern of −2.0 denotes the real −2. -/
theorem ofBits_negTwo : Ideal.ofBits .f32 0xC0000000#32 = ((-2 : ℝ) : EReal) := by
  simp [Ideal.ofBits, Ideal.ieee, -EReal.coe_mul]; norm_num

/-- The pattern of −∞ denotes the bottom of the extended reals. -/
theorem ofBits_negInf : Ideal.ofBits .f32 0xFF800000#32 = ⊥ := by
  simp [Ideal.ofBits, Ideal.ieee]

/-- The clamp's lower bound ε (the float nearest 10⁻¹²), the same pattern in both programs. -/
def eps : EReal := Ideal.ofBits .f32 0x2B8CBCCC#32

/-- ε is a real number, and not negative: all the clamp needs. -/
theorem eps_real : ∃ e : ℝ, 0 ≤ e ∧ eps = (e : EReal) := by
  refine ⟨(8388608 + 834764 : ℕ) * (2 : ℝ) ^ ((87 : ℤ) - 127 - 23), by positivity, ?_⟩
  unfold eps
  simp [Ideal.ofBits, Ideal.ieee, -EReal.coe_mul]

/-! ## One entry, in the two spellings -/

/-- The three-term expansion under the root. -/
def refEntry (X P : Fin 16 → EReal) : EReal :=
  -(Ideal.sqrt (max (((∑ k, X k * X k) + (∑ k, P k * P k)) - Ideal.ofBits .f32 0x40000000#32 * (∑ k, X k * P k)) eps))

/-- The augmented inner product of length 18, split into its sixteen leading terms and its last two, clamped, and
    the root taken as m · m^(−1/2), subtracted from zero. -/
def kerEntry (X P : Fin 16 → EReal) : EReal :=
  let M : EReal := max ((∑ k, (Ideal.ofBits .f32 0xC0000000#32 * X k) * P k)
      + (∑ k, X k * X k) * Ideal.ofBits .f32 0x3F800000#32 + Ideal.ofBits .f32 0x3F800000#32 * (∑ k, P k * P k)) eps
  Ideal.ofBits .f32 0x00000000#32 - M * Ideal.rsqrt M

/-- A finite sum of real numbers, computed in the extended reals, is the real sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- For a real m ≥ 0 the product m · m^(−1/2), taken in the extended reals, is √m. -/
theorem mul_rsqrt (r : ℝ) (hr : 0 ≤ r) : (r : EReal) * Ideal.rsqrt (r : EReal) = Ideal.sqrt (r : EReal) := by
  rw [Ideal.rsqrt_coe, Ideal.sqrt_coe, if_neg (not_lt.mpr hr), if_neg (not_lt.mpr hr)]
  by_cases h0 : r = 0
  · subst h0; simp
  · rw [if_neg h0, ← EReal.coe_mul]
    congr 1
    have hpos : 0 < r := lt_of_le_of_ne hr (Ne.symm h0)
    have hs : 0 < Real.sqrt r := Real.sqrt_pos.mpr hpos
    rw [mul_inv_eq_iff_eq_mul₀ hs.ne']
    exact (Real.mul_self_sqrt hr).symm

/-- THE LAW that joins the two programs: on rows of real numbers the two spellings of an entry agree. -/
theorem kerEntry_eq_refEntry (X P : Fin 16 → EReal) (hX : ∀ k, ∃ r : ℝ, X k = (r : EReal)) (hP : ∀ k, ∃ r : ℝ, P k = (r : EReal)) :
    kerEntry X P = refEntry X P := by
  choose x hx using hX
  choose p hp using hP
  obtain ⟨e, he, hε⟩ := eps_real
  have eX : X = fun k => ((x k : ℝ) : EReal) := funext hx
  have eP : P = fun k => ((p k : ℝ) : EReal) := funext hp
  subst eX; subst eP
  unfold kerEntry refEntry
  simp only [ofBits_one, ofBits_two, ofBits_negTwo, Ideal.ofBits_zero_f32, hε, ← EReal.coe_mul, coe_sum, ← EReal.coe_add,
    ← EReal.coe_sub, mul_one, one_mul]
  have hsum : (∑ k, -2 * x k * p k) + (∑ k, x k * x k) + (∑ k, p k * p k)
      = (∑ k, x k * x k) + (∑ k, p k * p k) - 2 * (∑ k, x k * p k) := by
    have h2 : (∑ k, -2 * x k * p k) = -2 * (∑ k, x k * p k) := by
      rw [Finset.mul_sum]; exact Finset.sum_congr rfl fun k _ => by ring
    rw [h2]; ring
  rw [hsum, ← EReal.coe_strictMono.monotone.map_max, mul_rsqrt _ (le_max_of_le_right he), zero_sub]

/-! ## The whole result -/

/-- The logits as ONE function of the two argument arrays: entry (b, j) from row b of x and row j of the prototypes. -/
def G (x : (⟨2, ![1024, 16]⟩ : Shape).Idx → EReal) (p : (⟨2, ![100000, 16]⟩ : Shape).Idx → EReal) :
    (⟨2, ![1024, 100000]⟩ : Shape).Idx → EReal :=
  fun i => refEntry (fun k => x (ValueIdx.ix2 (⟨(i 0).val, ValueIdx.idx2_lt0 i⟩ : Fin 1024) k))
    (fun k => p (ValueIdx.ix2 (⟨(i 1).val, ValueIdx.idx2_lt1 i⟩ : Fin 100000) k))

end Cert.Lvq

end
-- ==== Proof.KPayload.lean ====
/-
  Entry (b, j) of the value the kernel body stores, read at the extended reals: the augmented inner product of
  row b of the batch block with row j of the prototype block, clamped and rooted.
-/
import proofs.«168494_g41042707480709_retrytranche2_1909_4_alg».proof.Proof.Gen.KernelIdeal.Skeleton
import proofs.«168494_g41042707480709_retrytranche2_1909_4_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Defs

noncomputable section

namespace Cert.KernelIdeal.Pay

open Cert.KernelIdeal Cert.KernelIdeal.Gen Idealize.ShloMosaic Idealize.ShloMosaic.ValueIdx

/-! ## Row sums as columns -/

/-- A lane sum over the second axis of an [n, 16] array, cast to a column [n, 1], read at (b, u): the sum of row b. -/
theorem rowSum_apply {n : ℕ} (x : FVec Ideal ⟨2, ![n, 16]⟩ .f32)
    (h : (⟨2, ![n, 16]⟩ : Shape).Reduces [1] ⟨1, ![n]⟩) (hs : (⟨1, ![n]⟩ : Shape).ShapeCasts ⟨2, ![n, 1]⟩)
    (hφ : FKind.Formats .f32) (hacc : (0x00000000#32 : BitVec 32) = 0x00000000#32) (b : Fin n) (u : Fin 1) :
    shapeCast ⟨2, ![n, 1]⟩ (multiReduction (F := Ideal) .add [1] ⟨1, ![n]⟩ x 0x00000000#32 h hφ hacc) hs (ix2 b u)
      = ∑ k : Fin 16, x (ix2 b k) := by
  rw [shapeCast_apply _ hs (ix2 b u) (ix1 b) (by
    have hu : u.val = 0 := by omega
    rw [Shape.rowMajor_val_one, Shape.rowMajor_val_two]
    show b.val = b.val * 1 + u.val
    omega)]
  refine (Ideal.multiReduction_add_single x 0x00000000#32 h hφ hacc (ix1 b)).trans ?_
  refine Finset.sum_congr rfl fun k _ => congrArg x (funext fun a => Fin.ext ?_)
  match a with
  | ⟨0, _⟩ => rfl
  | ⟨1, _⟩ => rfl

/-! ## A three-piece concatenation along the second axis, read column by column -/

section Cat
variable {α : Type} {n : ℕ}

/-- The concatenation [n,16] ++ [n,1] ++ [n,1] along the second axis, read in its first sixteen columns. -/
theorem cat_lo (A : (⟨2, ![n, 16]⟩ : Shape).Idx → α) (B C : (⟨2, ![n, 1]⟩ : Shape).Idx → α)
    (h : Shape.Concatenates [(⟨2, ![n, 16]⟩ : Shape), ⟨2, ![n, 1]⟩, ⟨2, ![n, 1]⟩] ⟨2, ![n, 18]⟩ 1) (b : Fin n) (k : Fin 16) :
    concatenate ⟨2, ![n, 18]⟩ 1 [⟨⟨2, ![n, 16]⟩, A⟩, ⟨⟨2, ![n, 1]⟩, B⟩, ⟨⟨2, ![n, 1]⟩, C⟩] h (ix2 b k.castSucc.castSucc) = A (ix2 b k) :=
  concatenate_apply_piece (t := ⟨2, ![n, 18]⟩) 1 [⟨⟨2, ![n, 16]⟩, A⟩, ⟨⟨2, ![n, 1]⟩, B⟩, ⟨⟨2, ![n, 1]⟩, C⟩] h
    (ix2 b k.castSucc.castSucc) 0 (show 0 < 3 by omega) _ A rfl rfl 0 rfl (ix2 b k)
    (fun c hc => by match c with
      | ⟨0, _⟩ => rfl
      | ⟨1, _⟩ => exact absurd rfl hc)
    (by show 0 + k.val = k.val; omega)

/-- … in its seventeenth column: the second piece. -/
theorem cat_mid (A : (⟨2, ![n, 16]⟩ : Shape).Idx → α) (B C : (⟨2, ![n, 1]⟩ : Shape).Idx → α)
    (h : Shape.Concatenates [(⟨2, ![n, 16]⟩ : Shape), ⟨2, ![n, 1]⟩, ⟨2, ![n, 1]⟩] ⟨2, ![n, 18]⟩ 1) (b : Fin n) :
    concatenate ⟨2, ![n, 18]⟩ 1 [⟨⟨2, ![n, 16]⟩, A⟩, ⟨⟨2, ![n, 1]⟩, B⟩, ⟨⟨2, ![n, 1]⟩, C⟩] h (ix2 b (Fin.last 16).castSucc) = B (ix2 b 0) :=
  concatenate_apply_piece (t := ⟨2, ![n, 18]⟩) 1 [⟨⟨2, ![n, 16]⟩, A⟩, ⟨⟨2, ![n, 1]⟩, B⟩, ⟨⟨2, ![n, 1]⟩, C⟩] h
    (ix2 b (Fin.last 16).castSucc) 1 (show 1 < 3 by omega) _ B rfl rfl 16 rfl (ix2 b 0)
    (fun c hc => by match c with
      | ⟨0, _⟩ => rfl
      | ⟨1, _⟩ => exact absurd rfl hc)
    rfl

/-- … in its eighteenth column: the third piece. -/
theorem cat_hi (A : (⟨2, ![n, 16]⟩ : Shape).Idx → α) (B C : (⟨2, ![n, 1]⟩ : Shape).Idx → α)
    (h : Shape.Concatenates [(⟨2, ![n, 16]⟩ : Shape), ⟨2, ![n, 1]⟩, ⟨2, ![n, 1]⟩] ⟨2, ![n, 18]⟩ 1) (b : Fin n) :
    concatenate ⟨2, ![n, 18]⟩ 1 [⟨⟨2, ![n, 16]⟩, A⟩, ⟨⟨2, ![n, 1]⟩, B⟩, ⟨⟨2, ![n, 1]⟩, C⟩] h (ix2 b (Fin.last 17)) = C (ix2 b 0) :=
  concatenate_apply_piece (t := ⟨2, ![n, 18]⟩) 1 [⟨⟨2, ![n, 16]⟩, A⟩, ⟨⟨2, ![n, 1]⟩, B⟩, ⟨⟨2, ![n, 1]⟩, C⟩] h
    (ix2 b (Fin.last 17)) 2 (show 2 < 3 by omega) _ C rfl rfl 17 rfl (ix2 b 0)
    (fun c hc => by match c with
      | ⟨0, _⟩ => rfl
      | ⟨1, _⟩ => exact absurd rfl hc)
    rfl

end Cat

/-! ## The matrix product at an index -/

/-- The left operand's row coordinate is the result's row coordinate. -/
theorem lhs_0 (i : S1024x4096.Idx) (q : dot_S1024x18_S4096x18_S1024x4096_1_1_0_0_n_n.contr.Idx) :
    (dot_S1024x18_S4096x18_S1024x4096_1_1_0_0_n_n.lhsIdx i q 0).val = (i 0).val := by
  unfold DotDims.lhsIdx
  rw [dif_neg (show ¬(0 : Fin S1024x18.rank) ∈ dot_S1024x18_S4096x18_S1024x4096_1_1_0_0_n_n.lhsBatch by decide), dif_pos (show (0 : Fin S1024x18.rank) ∈ dot_S1024x18_S4096x18_S1024x4096_1_1_0_0_n_n.lhsNonContracting by decide)]
  rfl
/-- The left operand's column coordinate is the contraction position. -/
theorem lhs_1 (i : S1024x4096.Idx) (q : dot_S1024x18_S4096x18_S1024x4096_1_1_0_0_n_n.contr.Idx) :
    (dot_S1024x18_S4096x18_S1024x4096_1_1_0_0_n_n.lhsIdx i q 1).val = (q ⟨0, by decide⟩).val :=
  dot_S1024x18_S4096x18_S1024x4096_1_1_0_0_n_n.lhsIdx_val_of_single rfl i q
/-- The right operand's row coordinate is the result's column coordinate. -/
theorem rhs_0 (i : S1024x4096.Idx) (q : dot_S1024x18_S4096x18_S1024x4096_1_1_0_0_n_n.contr.Idx) :
    (dot_S1024x18_S4096x18_S1024x4096_1_1_0_0_n_n.rhsIdx i q 0).val = (i 1).val := by
  unfold DotDims.rhsIdx
  rw [dif_neg (show ¬(0 : Fin S4096x18.rank) ∈ dot_S1024x18_S4096x18_S1024x4096_1_1_0_0_n_n.rhsBatch by decide), dif_pos (show (0 : Fin S4096x18.rank) ∈ dot_S1024x18_S4096x18_S1024x4096_1_1_0_0_n_n.rhsNonContracting by decide)]
  rfl
/-- The right operand's column coordinate is the contraction position. -/
theorem rhs_1 (i : S1024x4096.Idx) (q : dot_S1024x18_S4096x18_S1024x4096_1_1_0_0_n_n.contr.Idx) :
    (dot_S1024x18_S4096x18_S1024x4096_1_1_0_0_n_n.rhsIdx i q 1).val = (q ⟨0, by decide⟩).val :=
  dot_S1024x18_S4096x18_S1024x4096_1_1_0_0_n_n.rhsIdx_val_of_single rfl i q

/-- The product of an [1024, 18] array with the transpose of a [4096, 18] array, accumulated into zero, at (b, j):
    the inner product of row b with row j. -/
theorem mm_apply (L : FVec Ideal S1024x18 .f32) (R : FVec Ideal S4096x18 .f32) (b : Fin 1024) (j : Fin 4096) :
    matmul dot_S1024x18_S4096x18_S1024x4096_1_1_0_0_n_n none L R (constant (F := Ideal) S1024x4096 .f32 0x00000000#32) (ix2 b j)
      = ∑ c : Fin 18, L (ix2 b c) * R (ix2 j c) := by
  show FloatOps.matmul dot_S1024x18_S4096x18_S1024x4096_1_1_0_0_n_n none L R (constant (F := Ideal) S1024x4096 .f32 0x00000000#32) (ix2 b j) = _
  rw [Ideal.matmul_constant_zero_apply, ← Equiv.sum_comp (contrEquiv1 dot_S1024x18_S4096x18_S1024x4096_1_1_0_0_n_n 18 rfl rfl).symm]
  refine Finset.sum_congr rfl fun k _ => ?_
  have hk := contrEquiv1_symm_val dot_S1024x18_S4096x18_S1024x4096_1_1_0_0_n_n 18 rfl rfl k
  have el : dot_S1024x18_S4096x18_S1024x4096_1_1_0_0_n_n.lhsIdx (ix2 b j) ((contrEquiv1 dot_S1024x18_S4096x18_S1024x4096_1_1_0_0_n_n 18 rfl rfl).symm k) = ix2 b k := funext fun a => Fin.ext (by
    match a with
    | ⟨0, _⟩ => exact lhs_0 _ _
    | ⟨1, _⟩ => exact (lhs_1 _ _).trans hk)
  have er : dot_S1024x18_S4096x18_S1024x4096_1_1_0_0_n_n.rhsIdx (ix2 b j) ((contrEquiv1 dot_S1024x18_S4096x18_S1024x4096_1_1_0_0_n_n 18 rfl rfl).symm k) = ix2 j k := funext fun a => Fin.ext (by
    match a with
    | ⟨0, _⟩ => exact rhs_0 _ _
    | ⟨1, _⟩ => exact (rhs_1 _ _).trans hk)
  rw [el, er]

/-! ## The stored entry -/

/-- Entry (b, j) of the stored block depends on row b of the first operand and row j of the second only, and is
    the clamped, rooted augmented inner product of the two rows. -/
theorem pay_apply (v0 : Vec Ideal S1024x16 .f32) (v1 : Vec Ideal S4096x16 .f32) (b : Fin 1024) (j : Fin 4096) :
    k0_pay1 (F := Ideal) v0 v1 (ix2 b j) = Cert.Lvq.kerEntry (fun k => v0 (ix2 b k)) (fun k => v1 (ix2 j k)) := by
  unfold k0_pay1
  -- the pointwise tail: 0 − m · m^(−1/2) with m the clamped matrix-product entry
  show Ideal.ofBits .f32 0x00000000#32
      - max (matmul dot_S1024x18_S4096x18_S1024x4096_1_1_0_0_n_n none _ _ (constant (F := Ideal) S1024x4096 .f32 0x00000000#32) (ix2 b j)) Cert.Lvq.eps
        * Ideal.rsqrt (max (matmul dot_S1024x18_S4096x18_S1024x4096_1_1_0_0_n_n none _ _ (constant (F := Ideal) S1024x4096 .f32 0x00000000#32) (ix2 b j)) Cert.Lvq.eps) = _
  -- the entry is an eighteen-term inner product: its first sixteen terms, then the seventeenth and the eighteenth
  rw [mm_apply, Fin.sum_univ_castSucc, Fin.sum_univ_castSucc]
  -- each augmented row read in its three pieces, and the two row sums of squares
  simp only [cat_lo, cat_mid, cat_hi]
  rw [rowSum_apply, rowSum_apply]
  rfl

end Cert.KernelIdeal.Pay

end
-- ==== Proof.KBody.lean ====
/-
  The idealized kernel's pipeline, point by point.

  The grid has 25 points. At point t the batch block is the whole array x (its window never moves); the prototype
  block is rows 4096·t … of the prototypes, cut at row 100000 at the last point, where the staging buffer's remaining
  rows hold words nothing names; the body stores, whole, the clamped and rooted augmented inner products of the two
  buffers' rows into the result's buffer, whose columns inside the array are then written back. Entry (b, j) of what
  is stored depends on row j of the prototype buffer only, so on the columns that are written back the stored block
  does not depend on the unnamed rows: that is what lets the result be named exactly.
-/
import proofs.«168494_g41042707480709_retrytranche2_1909_4_alg».proof.Proof.Gen.KernelIdeal.Skeleton
import proofs.«168494_g41042707480709_retrytranche2_1909_4_alg».proof.Proof.Gen.KernelIdeal.Launch
import proofs.«168494_g41042707480709_retrytranche2_1909_4_alg».proof.Proof.Gen.KernelIdeal.Points
import proofs.«168494_g41042707480709_retrytranche2_1909_4_alg».proof.Proof.Gen.KernelIdeal.Frame
import proofs.«168494_g41042707480709_retrytranche2_1909_4_alg».proof.Proof.KPayload
import Idealize.ShloMosaic.Lib.Pipeline.Kit
import Idealize.ShloMosaic.Lib.Pipeline.Frame
import Idealize.ShloMosaic.Lib.Pipeline.FrameBody
import Idealize.ShloMosaic.Lib.Tactic

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel has no variants. -/
abbrev 𝒱₀ : Variants := Variants.none

/-! ## The body on any contents -/

/-- The store's rectangle: the whole of the result's staging block. -/
abbrev rOut : Rect S1024x4096 := Rect.unit (s := S1024x4096) ![0, 0] S1024x4096.size inb_S1024x4096_S1024x4096_0_0

/-- One store through the whole block covers it. -/
theorem coverOut (p0 : Vec F S1024x4096 .f32) (y : S1024x4096.Idx) :
    ∃ pc ∈ ([⟨rOut, p0⟩] : List (View.Piece (Elt F) S1024x4096 .f32)), y ∈ pc.1.set :=
  View.cover_of_tiled [⟨rOut, p0⟩] S1024x4096.size (by rfl) y

/-- The body on any three whole staging buffers, the first two at ANY contents x0, x1 and the third at anything: it
    reads the first two whole, reads the third (and drops what it read), and overwrites the third, whole, with the
    value computed from x0 and x1; the first two are left as they were. Whatever else the core holds is untouched. -/
theorem sound_kernel (c : Dev nD) (E : Set ℕ) (i : grid0.Coords)
    (arg1 : Memref sig .tc .vmem S1024x16 .f32) (harg1 : arg1.IsWhole) (arg2 : Memref sig .tc .vmem S4096x16 .f32) (harg2 : arg2.IsWhole)
    (arg3 : Memref sig .tc .vmem S1024x4096 .f32) (harg3 : arg3.IsWhole)
    (x0 : Vec F S1024x16 .f32) (x1 : Vec F S4096x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) 𝒱₀ c none) E (cc0__lvq_block i arg1 harg1 arg2 harg2 arg3 harg3) K := by
  simp only [cc0__lvq_block_eq_skeleton]; unfold cc0__lvq_block_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (coverOut _), View.canon_unit_zero hz]
  simp only [View.readAt_eq_ld, View.ld_unit_zero (S := S1024x16) hz, View.ld_unit_zero (S := S4096x16) hz]

/-! ## The schedule's sizes, decided once over the grid -/

/-- The result's block keeps all its 1024 rows at every point; -/
theorem xs2_0 : ∀ t : Fin cfg0.N, win0_2.xsize (grid0.coords t) 0 = 1024 :=
  (by decide +kernel : ∀ t : Fin grid0.N, win0_2.xsize (grid0.coords t) 0 = 1024)
/-- its columns inside the array are as many as the prototype block's rows inside the array; -/
theorem xs2_1 : ∀ t : Fin cfg0.N, win0_2.xsize (grid0.coords t) 1 = win0_1.xsize (grid0.coords t) 0 :=
  (by decide +kernel : ∀ t : Fin grid0.N, win0_2.xsize (grid0.coords t) 1 = win0_1.xsize (grid0.coords t) 0)
/-- the prototype block keeps all its 16 columns. -/
theorem xs1_1 : ∀ t : Fin cfg0.N, win0_1.xsize (grid0.coords t) 1 = 16 :=
  (by decide +kernel : ∀ t : Fin grid0.N, win0_1.xsize (grid0.coords t) 1 = 16)

/-! ## The stored block does not see the rows past the array's end -/

/-- Two fillings of the prototype buffer agree on every row the fetch lands. -/
theorem fill_agree (t : Fin cfg0.N) (d d' : S4096x16.Idx → Elt Ideal .f32) (g : (win0_1.xblock (grid0.coords t)).Idx → Elt Ideal .f32)
    (j : S4096x16.Idx) (hj : ∀ a, (j a).val < win0_1.xsize (grid0.coords t) a) :
    win0_1.fill (grid0.coords t) d g j = win0_1.fill (grid0.coords t) d' g j := by
  have hm := (win0_1.moved_iff (grid0.coords t) j).mpr hj
  unfold Window.fill; rw [dif_pos hm, dif_pos hm]

/-- On the columns that are written back, the stored block is the same whatever fills the prototype buffer's rows
    past the array's end: entry (b, j) reads row j of the buffer only, and column j is written back only if row j
    was fetched. -/
theorem cut_pay (t : Fin cfg0.N) (x : Vec Ideal S1024x16 .f32) (d d' : S4096x16.Idx → Elt Ideal .f32)
    (g : (win0_1.xblock (grid0.coords t)).Idx → Elt Ideal .f32) :
    win0_2.cut (grid0.coords t) (k0_pay1 (F := Ideal) x (win0_1.fill (grid0.coords t) d g))
      = win0_2.cut (grid0.coords t) (k0_pay1 (F := Ideal) x (win0_1.fill (grid0.coords t) d' g)) := by
  funext y
  have h0 : (y 0).val < 1024 := lt_of_lt_of_eq (y 0).isLt (xs2_0 t)
  have h1 : (y 1).val < win0_1.xsize (grid0.coords t) 0 := lt_of_lt_of_eq (y 1).isLt (xs2_1 t)
  have h1' : (y 1).val < 4096 := lt_of_lt_of_le h1 (win0_1.xsize_le (grid0.coords t) 0)
  have e : win0_2.xinj (grid0.coords t) y = ValueIdx.ix2 (⟨(y 0).val, h0⟩ : Fin 1024) (⟨(y 1).val, h1'⟩ : Fin 4096) :=
    funext fun a => Fin.ext (by match a with | ⟨0, _⟩ => rfl | ⟨1, _⟩ => rfl)
  show k0_pay1 (F := Ideal) x _ (win0_2.xinj (grid0.coords t) y) = k0_pay1 (F := Ideal) x _ (win0_2.xinj (grid0.coords t) y)
  rw [e, Pay.pay_apply, Pay.pay_apply]
  congr 1
  funext k
  refine fill_agree t d d' g _ fun a => ?_
  match a with
  | ⟨0, _⟩ => exact h1
  | ⟨1, _⟩ => show k.val < win0_1.xsize (grid0.coords t) 1; rw [xs1_1 t]; exact k.isLt

/-! ## The proof data -/

section Data

variable (m : (ℓ : Loc nD τ sig) → Buf (Elt Ideal) ℓ) (ρ : Dev nD → PrngReg)

/-- The batch block at any point: the whole batch array. -/
abbrev xblk (c : Dev nD) (t : Fin cfg0.N) : Vec Ideal S1024x16 .f32 := iblk m c 0 t

/-- The prototype buffer as the proof data names it at point t: the block's rows inside the array, and zero on the
    rows past the array's end (a word the proof picks; nothing that is written back reads it). -/
def pfull (c : Dev nD) (t : Fin cfg0.N) : Vec Ideal S4096x16 .f32 :=
  win0_1.fill (grid0.coords t) (fun _ => FloatOps.ofBits (F := Ideal) .f32 0#32) (iblk m c 1 t)

/-- The proof data of the one pipeline on core c: the arrays as the region finds them; after the body at point t the
    batch buffer at the batch array, the prototype buffer at `pfull`, the result's buffer at the value stored from those
    two; the invariant the part of the core the body never touches; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => pfull m c t
    | ⟨2, _⟩ => k0_pay1 (F := Ideal) (xblk m c t) (pfull m c t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = pfull m c t := by dsimp only [dats]
theorem after_2 (c : Dev nD) (t : Fin cfg0.N) :
    (dats m 0 c).after 2 t = k0_pay1 (F := Ideal) (xblk m c t) (pfull m c t) := by dsimp only [dats]

/-- The batch buffer holds the batch array at every point (fetched at the first, left in place since). -/
theorem before_0 (c : Dev nD) (t : Fin cfg0.N) (d) : (dats m 0 c).before 0 t d = iblk m c 0 t :=
  before0_0_of m (dats m 0 c) (A_eq m c 0) (after_0 m c) t d

/-- The prototype buffer, fetched at every point, holds the block's rows inside the array and anything past them. -/
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-! ## The body obligation -/

/-- What the body starts from at point t and what it must leave (the library's obligation with its windows written
    out): the two loose windows are stated on the part their transfers move only. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

theorem sound_body (c : Dev nD) (t : Fin cfg0.N) :
    bodyPre m c t ⊢ wp frame (wpE (defs₀ (F := Ideal)) 𝒱₀ c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  rw [before_0 m c t d0, before_1 m c t d1]
  iapply (sound_kernel (F := Ideal) c Set.univ (grid0.coords t) _ _ _ _ _ _ (xblk m c t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show win0_1.cut (grid0.coords t) (pfull m c t) = iblk m c 1 t from win0_1.cut_fill _ _ _]
    iexact H1
  · iexists (k0_pay1 (F := Ideal) (xblk m c t) (win0_1.fill (grid0.coords t) d1 (iblk m c 1 t)))
    unfold pfull
    erw [win0_2.fill_congr_cut (grid0.coords t) (cut_pay t (xblk m c t) d1 (fun _ => FloatOps.ofBits (F := Ideal) .f32 0#32) (iblk m c 1 t))]
    iexact H2

/-- The library's body obligation, at every point. -/
theorem body_obligation (c : Dev nD) : BodyObligationLoose (dats m 0 c) (defs₀ (F := Ideal)) 𝒱₀ () Set.univ := fun t => by
  rw [bigSep_W0, bigSep_W0]
  exact sound_body m c t

/-! ## The run -/

set_option backward.isDefEq.respectTransparency.types false in
/-- At the compiled mesh, for any extended-real contents, from any memory with zero counters: every weakly fair
    execution of @main terminates, every array of the pipeline ends at what the library computes from the proof data,
    and the argument arrays are among them, unchanged. -/
theorem run_main : θ_run defs (onTc (τ := τ) (main (F := Ideal))) (s₀ m ρ) (Pipeline.FramePost cfgs (dats m) 0 (V m)) :=
  Pipeline.θ_run_frame cfgs (dats m) (0 : Fin 1) launch0 defs₀ 𝒱₀ m ρ main
    (hbody := fun c => body_obligation m c) (hshare := fun c => (dats m 0 c).share_full fun _ => rfl)
    (howed := fun _ _ => rfl) (V := V m) (hmain := hmain m 𝒱₀) (hA := A_eq m) (hΦ := fun _ _ => rfl)

end Data

end Cert.KernelIdeal.Body

end
-- ==== Proof.KValue.lean ====
/-
  What the result array holds after the idealized kernel's run: the logits function of the two argument arrays.

  Point t writes back columns 4096·t … of the result, cut at column 100000. Entry (b, j) of what it writes is the
  clamped, rooted augmented inner product of row b of x with row 4096·t + j of the prototypes, which on rows of real
  numbers is the three-term expansion the logits function is stated by. The 25 written-back blocks cover every
  column below 100000 (column q lies in the block of point q / 4096), so the array ends holding the function.
-/
import proofs.«168494_g41042707480709_retrytranche2_1909_4_alg».proof.Proof.KBody
import proofs.«168494_g41042707480709_retrytranche2_1909_4_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Body

open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The schedule, decided once over the grid -/

/-- The batch window stays at block (0, 0); the prototype window is at block (t, 0) and the result's at (0, t); the
    prototype block's rows inside the array, and so the result block's columns inside it, are 4096 except at the
    last point, and never run past row (column) 100000. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_1.xsize (grid0.coords t) 0 = min 4096 (100000 - t.val * 4096) :=
  (by decide +kernel : ∀ t : Fin grid0.N, _)

/-! ## The staged rows are the argument arrays' rows -/

/-- Row b of the batch buffer is row b of x. -/
theorem xrow (c : Dev nD) (t : Fin cfg0.N) (b : Fin 1024) :
    (fun k : Fin 16 => xblk m c t (ix2 b k)) = fun k => m ((c : Thread nD τ).loc main_arg0) (ix2 b k) := by
  obtain ⟨e0, e1, -⟩ := idx_facts t
  funext k
  show V m c main_arg0 (((cfg0.win 0).blk t).view.emb (ix2 b k)) = V m c main_arg0 (ix2 b k)
  refine congrArg _ (funext fun a => Fin.ext ?_)
  match a with
  | ⟨0, _⟩ => show win0_0.index t (0 : Fin 2) * 1024 + 1 * b.val = b.val; omega
  | ⟨1, _⟩ => show win0_0.index t (1 : Fin 2) * 16 + 1 * k.val = k.val; omega

/-- Row j of the prototype buffer, for a row the fetch lands, is row 4096·t + j of the prototypes. -/
theorem prow (c : Dev nD) (t : Fin cfg0.N) (j : Fin 4096) (hj : j.val < win0_1.xsize (grid0.coords t) 0)
    (q : Fin 100000) (hq : q.val = t.val * 4096 + j.val) :
    (fun k : Fin 16 => pfull m c t (ix2 j k)) = fun k => m ((c : Thread nD τ).loc main_arg1) (ix2 q k) := by
  obtain ⟨-, -, e2, e3, -⟩ := idx_facts t
  funext k
  have hm : win0_1.moved (grid0.coords t) (ix2 j k) = true := (win0_1.moved_iff (grid0.coords t) _).mpr fun a => by
    match a with
    | ⟨0, _⟩ => exact hj
    | ⟨1, _⟩ => show k.val < win0_1.xsize (grid0.coords t) 1; rw [xs1_1 t]; exact k.isLt
  unfold pfull Window.fill
  rw [dif_pos hm]
  show V m c main_arg1 (((cfg0.win 1).blk t).view.emb _) = V m c main_arg1 (ix2 q k)
  refine congrArg _ (funext fun a => Fin.ext ?_)
  match a with
  | ⟨0, _⟩ => show win0_1.index t (0 : Fin 2) * 4096 + 1 * j.val = q.val; omega
  | ⟨1, _⟩ => show win0_1.index t (1 : Fin 2) * 16 + 1 * k.val = k.val; omega

/-- The logits function at an index whose coordinates are b and q. -/
theorem G_at (x : (⟨2, ![1024, 16]⟩ : Shape).Idx → EReal) (p : (⟨2, ![100000, 16]⟩ : Shape).Idx → EReal)
    (i : (⟨2, ![1024, 100000]⟩ : Shape).Idx) (b : Fin 1024) (q : Fin 100000) (hb : (i 0).val = b.val) (hq : (i 1).val = q.val) :
    Cert.Lvq.G x p i = Cert.Lvq.refEntry (fun k => x (ix2 b k)) (fun k => p (ix2 q k)) := by
  unfold Cert.Lvq.G
  rw [show (⟨(i 0).val, idx2_lt0 i⟩ : Fin 1024) = b from Fin.ext hb, show (⟨(i 1).val, idx2_lt1 i⟩ : Fin 100000) = q from Fin.ext hq]

/-! ## What a point writes back -/

/-- WHAT POINT t WRITES BACK is its block of the logits function of the argument arrays, when those hold real
    numbers. -/
theorem flushed_eq (c : Dev nD) (t : Fin cfg0.N)
    (hx : ∀ i, ∃ r : ℝ, m ((c : Thread nD τ).loc main_arg0) i = (r : EReal))
    (hp : ∀ i, ∃ r : ℝ, m ((c : Thread nD τ).loc main_arg1) i = (r : EReal)) :
    (dats m 0 c).flushed 2 t = ((cfg0.win 2).blk t).view.read (Elt Ideal)
      (Cert.Lvq.G (m ((c : Thread nD τ).loc main_arg0)) (m ((c : Thread nD τ).loc main_arg1))) := by
  show (cfg0.win 2).cut (grid0.coords t) ((dats m 0 c).after 2 t) = _
  rw [after_2]
  obtain ⟨-, -, -, -, e4, e5, e6⟩ := idx_facts t
  funext y
  have h0 : (y 0).val < 1024 := lt_of_lt_of_eq (y 0).isLt (xs2_0 t)
  have h1 : (y 1).val < win0_1.xsize (grid0.coords t) 0 := lt_of_lt_of_eq (y 1).isLt (xs2_1 t)
  have h1' : (y 1).val < 4096 := lt_of_lt_of_le h1 (win0_1.xsize_le (grid0.coords t) 0)
  have ht : t.val < 25 := t.isLt
  have hq : t.val * 4096 + (y 1).val < 100000 := by rw [e6] at h1; omega
  have e : win0_2.xinj (grid0.coords t) y = ix2 (⟨(y 0).val, h0⟩ : Fin 1024) (⟨(y 1).val, h1'⟩ : Fin 4096) :=
    funext fun a => Fin.ext (by match a with | ⟨0, _⟩ => rfl | ⟨1, _⟩ => rfl)
  show k0_pay1 (F := Ideal) (xblk m c t) (pfull m c t) (win0_2.xinj (grid0.coords t) y)
    = Cert.Lvq.G (m ((c : Thread nD τ).loc main_arg0)) (m ((c : Thread nD τ).loc main_arg1)) (((cfg0.win 2).blk t).view.emb y)
  rw [e, Pay.pay_apply, xrow m c t ⟨(y 0).val, h0⟩, prow m c t ⟨(y 1).val, h1'⟩ h1 ⟨t.val * 4096 + (y 1).val, hq⟩ rfl,
    Cert.Lvq.kerEntry_eq_refEntry _ _ (fun k => hx _) (fun k => hp _)]
  refine (G_at _ _ _ ⟨(y 0).val, h0⟩ ⟨t.val * 4096 + (y 1).val, hq⟩ ?_ ?_).symm
  · show win0_2.index t (0 : Fin 2) * 1024 + 1 * (y 0).val = (y 0).val; omega
  · show win0_2.index t (1 : Fin 2) * 4096 + 1 * (y 1).val = t.val * 4096 + (y 1).val; omega

/-! ## The written-back blocks cover the array -/

/-- An index of the result is in point t's block iff each coordinate is within the block's part inside the array. -/
theorem mem_blk (t : Fin cfg0.N) (i : S1024x100000.Idx) :
    i ∈ ((cfg0.win 2).blk t).view.set ↔ ∀ a : Fin 2, win0_2.index t a * S1024x4096.size a ≤ (i a).val
      ∧ (i a).val < win0_2.index t a * S1024x4096.size a + win0_2.xsize (grid0.coords t) a := by
  show i ∈ ((View.whole main_v0).slice (win0_2.rect t)).set ↔ _
  rw [View.set_slice_whole, Rect.mem_set_unit]
  exact Iff.rfl

/-- Column q of the result lies in the block of point q / 4096. -/
theorem cover (i : S1024x100000.Idx) : ∃ t : Fin cfg0.N, (cfg0.win 2).flush t = true ∧ i ∈ ((cfg0.win 2).blk t).view.set := by
  have hi0 : (i 0).val < 1024 := (i 0).isLt
  have hi1 : (i 1).val < 100000 := (i 1).isLt
  refine ⟨⟨(i 1).val / 4096, by show (i 1).val / 4096 < 25; omega⟩, flush0_2 _, ?_⟩
  rw [mem_blk]
  obtain ⟨-, -, -, -, e4, e5, e6⟩ := idx_facts ⟨(i 1).val / 4096, by show (i 1).val / 4096 < 25; omega⟩
  intro a
  match a with
  | ⟨0, _⟩ =>
    show win0_2.index _ (0 : Fin 2) * 1024 ≤ (i 0).val ∧ (i 0).val < win0_2.index _ (0 : Fin 2) * 1024 + win0_2.xsize _ 0
    rw [xs2_0, e4]; omega
  | ⟨1, _⟩ =>
    show win0_2.index _ (1 : Fin 2) * 4096 ≤ (i 1).val ∧ (i 1).val < win0_2.index _ (1 : Fin 2) * 4096 + win0_2.xsize _ 1
    rw [xs2_1, e5, e6]; show (i 1).val / 4096 * 4096 ≤ (i 1).val ∧ (i 1).val < (i 1).val / 4096 * 4096 + min 4096 (100000 - (i 1).val / 4096 * 4096); omega

/-- THE RESULT ARRAY after the run is the logits function of the argument arrays, when those hold real numbers. -/
theorem final (c : Dev nD)
    (hx : ∀ i, ∃ r : ℝ, m ((c : Thread nD τ).loc main_arg0) i = (r : EReal))
    (hp : ∀ i, ∃ r : ℝ, m ((c : Thread nD τ).loc main_arg1) i = (r : EReal)) :
    (dats m 0 c).arrAt 2 cfg0.N = Cert.Lvq.G (m ((c : Thread nD τ).loc main_arg0)) (m ((c : Thread nD τ).loc main_arg1)) :=
  (dats m 0 c).arrAt_eq_of_cover 2 _ (fun t _ => flushed_eq m c t hx hp) cover

/-! ## The run, read -/

/-- Every weakly fair execution of the idealized kernel's @main terminates, with the arguments unchanged — -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- and, from arguments that hold real numbers, with the result array at the logits function of the arguments. -/
theorem run (hfin : ∀ c : Dev nD, (∀ i, ∃ r : ℝ, m ((c : Thread nD τ).loc main_arg0) i = (r : EReal))
      ∧ (∀ i, ∃ r : ℝ, m ((c : Thread nD τ).loc main_arg1) i = (r : EReal))) :
    θ_run defs (onTc (τ := τ) (main (F := Ideal))) ⟨m, fun _ => 0, ρ⟩ fun r => ∀ c : Dev nD,
      r.2.mem ((c : Thread nD τ).loc main_v0) = Cert.Lvq.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c (hfin c).1 (hfin c).2),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference program's result, read one entry at a time, is the logits function of the two argument arrays.

  The last stage is a maximum-fold from −∞ over a trailing axis of extent one, so each of its entries is the one element
  under it: max(x, ⊥) = x.  Below that, every stage is read at an index: the reshape [1024,100000] → [1024,100000,1] sends
  (p, q, 0) back to (p, q); the two broadcasts carry the row sums ∑ₖ x(p,k)² and ∑ₖ p(q,k)² to entry (p, q); the
  transpose followed by the contraction is ∑ₖ x(p,k) · p(q,k).  With the zero initial values of the two sums removed the
  entry is, term for term, −√(max(∑x² + ∑p² − 2·∑x·p, ε)).
-/
import proofs.«168494_g41042707480709_retrytranche2_1909_4_alg».proof.Proof.Gen.ReferenceIdeal.Read
import proofs.«168494_g41042707480709_retrytranche2_1909_4_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Mathlib.Data.Finset.Fold
import Mathlib.Data.Finset.BooleanAlgebra
import Mathlib.Order.BoundedOrder.Lattice

noncomputable section

namespace Cert.ReferenceIdeal.RefValue

open Cert.ReferenceIdeal Cert.ReferenceIdeal.Gen Cert.ReferenceIdeal.Read Idealize.ShloMosaic Idealize.ShloMosaic.ValueIdx

/-- A fold over the one-element index type is one application of the operation. -/
theorem fold_univ_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- The reduced index (p, q) with the trailing coordinate put back is (p, q, 0). -/
theorem lift_ix3 (h : S1024x100000x1.Reduces [2] S1024x100000) (p : Fin 1024) (q : Fin 100000) (k : Fin 1) :
    h.lift (ix2 p q) k = ix3 p q (0 : Fin 1) := by
  funext c; apply Fin.ext
  match c with
  | ⟨0, _⟩ => rfl
  | ⟨1, _⟩ => rfl
  | ⟨2, _⟩ => show k.val = 0; omega

/-- Row-major position p·100000 + q of [1024,100000,1], read back in [1024,100000], is (p, q). -/
theorem idx_v19_ix3 (p : Fin 1024) (q : Fin 100000) : idx_main_v19 (ix3 p q (0 : Fin 1)) = ix2 p q := by
  funext a; apply Fin.ext
  have hp : p.val < 1024 := p.isLt
  have hq : q.val < 100000 := q.isLt
  match a with
  | ⟨0, _⟩ => show ((p.val * 100000 + q.val) * 1 + 0) / 100000 = p.val; omega
  | ⟨1, _⟩ => show ((p.val * 100000 + q.val) * 1 + 0) % 100000 = q.val; omega

/-- The last stage folds a maximum from −∞ over a trailing axis of extent one: at (p, q) it is the negated root there. -/
theorem v20_apply (x0 : (⟨S1024x16, .f32⟩ : BufTy).Contents (Elt Ideal)) (x1 : (⟨S100000x16, .f32⟩ : BufTy).Contents (Elt Ideal))
    (p : Fin 1024) (q : Fin 100000) :
    val_main_v20 (F := Ideal) x0 x1 (ix2 p q) = val_main_v18 (F := Ideal) x0 x1 (ix2 p q) := by
  unfold val_main_v20
  have hR : S1024x100000x1.Reduces [2] S1024x100000 := by decide
  rw [Host.reduce_eq_fold_single FloatOps.maximumf _ _ reducesTo_S1024x100000x1_S1024x100000_d2 hR h_S_]
  refine (fold_univ_fin_one (FloatOps.maximumf (F := Ideal) (φ := .f32)) _ _).trans ?_
  show max (val_main_v19 (F := Ideal) x0 x1 (hR.lift (ix2 p q) (0 : Fin 1))) (val_main_cst_4 (F := Ideal) (Shape.Idx.first h_S_)) = _
  rw [lift_ix3, val_main_cst_4_apply, Ideal.ofBits_def, Cert.Lvq.ofBits_negInf, max_bot_right, val_main_v19_apply, idx_v19_ix3]

/-- The reference's last stage is the logits function `Cert.Lvq.G` of the argument arrays. -/
theorem ref_eq (x0 : (⟨S1024x16, .f32⟩ : BufTy).Contents (Elt Ideal)) (x1 : (⟨S100000x16, .f32⟩ : BufTy).Contents (Elt Ideal)) :
    val_main_v20 (F := Ideal) x0 x1 = Cert.Lvq.G x0 x1 := by
  funext i
  obtain ⟨p, q, rfl⟩ : ∃ (p : Fin 1024) (q : Fin 100000), i = ix2 p q := ⟨i 0, i 1, eq_ix2 i⟩
  -- the composed index maps of the stages below, at explicit coordinates
  have e1 : ∀ k : Fin 16, idx_main_v1 (idx_main_v2 (idx_main_v6 (ix2 p q))) k = ix2 p k := fun k =>
    funext fun a => Fin.ext (by match a with | ⟨0, _⟩ => rfl | ⟨1, _⟩ => rfl)
  have e4 : ∀ k : Fin 16, idx_main_v4 (idx_main_v5 (idx_main_v7 (ix2 p q))) k = ix2 q k := fun k =>
    funext fun a => Fin.ext (by match a with | ⟨0, _⟩ => rfl | ⟨1, _⟩ => rfl)
  have el : ∀ k : Fin 16, lidx_main_v10 (ix2 p q) k = ix2 p k := fun k =>
    funext fun a => Fin.ext (by match a with | ⟨0, _⟩ => rfl | ⟨1, _⟩ => rfl)
  have er : ∀ k : Fin 16, idx_main_v9 (ridx_main_v10 (ix2 p q) k) = ix2 q k := fun k =>
    funext fun a => Fin.ext (by match a with | ⟨0, _⟩ => rfl | ⟨1, _⟩ => rfl)
  rw [v20_apply, val_main_v18_apply, val_main_v16_apply, val_main_v15_apply, val_main_v13_apply, val_main_v14_apply,
    val_main_cst_2_apply, val_main_v8_apply, val_main_v12_apply, val_main_v11_apply, val_main_cst_1_apply,
    val_main_v10_apply, val_main_v6_apply, val_main_v2_apply, val_main_v1_apply, val_main_v7_apply, val_main_v5_apply,
    val_main_v4_apply, val_main_cst_apply, val_main_cst_0_apply]
  simp only [val_main_v0_apply, val_main_v3_apply, val_main_v9_apply, e1, e4, el, er, Ideal.mulf_def, Ideal.addf_def,
    Ideal.subf_def, Ideal.maximumf_def, Ideal.hostNegf_def, Ideal.negf_def, Ideal.hostUnary_sqrt_def, Ideal.ofBits_def,
    Ideal.ofBits_zero_f32, zero_add]
  unfold Cert.Lvq.G Cert.Lvq.refEntry Cert.Lvq.eps
  rfl

end Cert.ReferenceIdeal.RefValue

end
-- ==== Proof.Finite.lean ====
/-
  The precondition "every float input is finite", decoded: every entry of both argument arrays is a real number.
-/
import proofs.«168494_g41042707480709_retrytranche2_1909_4_alg».proof.Pre_finite_inputs
import Idealize.ShloMosaic.Lib.ReduceAll
import Idealize.ShloMosaic.Lib.ValueIdx
import Idealize.ShloMosaic.PureOps.Ideal.Laws

noncomputable section

namespace Cert.Lvq.Finite

open Idealize.ShloMosaic

/-- The rank-0 shape has a single index. -/
instance : Subsingleton Cert.Pre_finite_inputs.S_.Idx := ⟨fun a b => funext fun d => d.elim0⟩

/-- The word 0x7F800000 (sign 0, exponent all ones, fraction 0) reads as +∞. -/
theorem ofBits_inf : (FloatOps.ofBits (F := Ideal) .f32 0x7F800000#32 : EReal) = ⊤ := by
  show Ideal.ofBits .f32 0x7F800000#32 = ⊤
  simp [Ideal.ofBits, Ideal.ieee]

/-- An extended real whose absolute value max a (-a) lies strictly below +∞ is a real number:
    at a = ⊤ the maximum is ⊤, at a = ⊥ it is -⊥ = ⊤, and ⊤ < ⊤ is false. -/
theorem real_of_abs_lt (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  rw [ofBits_inf] at h
  -- at the extended reals the comparison is the order's and the absolute value is max a (-a)
  change Ideal.cmp .olt (max a (-a)) ⊤ = 1#1 at h
  induction a using EReal.rec with
  | bot => simp [Ideal.cmp] at h
  | top => simp [Ideal.cmp] at h
  | coe r => exact ⟨r, rfl⟩

/-- If the printed predicate evaluates to true on two arrays of extended reals, every entry of both is a real number. -/
theorem real_of_fn [Cert.Pre_finite_inputs.Facts] (x : FVec Ideal Cert.Pre_finite_inputs.S1024x16 .f32)
    (p : FVec Ideal Cert.Pre_finite_inputs.S100000x16 .f32)
    (h : Cert.Pre_finite_inputs.fn (F := Ideal) x p = fun _ => 1#1) :
    (∀ i, ∃ r : ℝ, x i = (r : EReal)) ∧ (∀ i, ∃ r : ℝ, p i = (r : EReal)) := by
  have h0 := congrFun h ValueIdx.ix0
  dsimp only [Cert.Pre_finite_inputs.fn] at h0
  obtain ⟨hx, hp⟩ := IntOp.andi_eq_one.1 h0
  exact ⟨fun i => real_of_abs_lt (x i) (Host.reduce_andi_all _ _ _ _ _ hx i),
    fun i => real_of_abs_lt (p i) (Host.reduce_andi_all _ _ _ _ _ hp i)⟩

end Cert.Lvq.Finite

end
-- ==== Proof.lean ====
/-
  The certificate of the LVQ logits kernel against its reference.

  Both programs compute, for every batch row b and prototype row j, minus the Euclidean distance clamped from below,
  −√(max(‖x_b‖² + ‖p_j‖² − 2·x_b·p_j, ε)). The kernel tiles the 100000 prototypes in 25 blocks of 4096 (the last one
  cut at the array's end) and gets the squared distance as one inner product of augmented rows and the root as
  m · m^(−1/2); the reference writes the three-term expansion and a square root, and ends with a maximum over an axis of
  extent one. On finite inputs all sums are real sums and the two spellings agree entry by entry (Proof/Spec.lean).
  The kernel's result array is read off its pipeline's run point by point (Proof/KBody.lean, Proof/KValue.lean), the
  reference's off its run one operation at a time (Proof/RefValue.lean); the word-level kernel's frame needs nothing of
  the result's contents (Proof/KernelFrame.lean); finiteness is decoded from the precondition (Proof/Finite.lean).
-/
import proofs.«168494_g41042707480709_retrytranche2_1909_4_alg».proof.Defs
import proofs.«168494_g41042707480709_retrytranche2_1909_4_alg».proof.Proof.Gen.Kernel
import proofs.«168494_g41042707480709_retrytranche2_1909_4_alg».proof.Proof.Gen.KernelIdeal
import proofs.«168494_g41042707480709_retrytranche2_1909_4_alg».proof.Proof.Gen.ReferenceIdeal
import proofs.«168494_g41042707480709_retrytranche2_1909_4_alg».proof.Proof.Gen.ReferenceIdeal.Run
import proofs.«168494_g41042707480709_retrytranche2_1909_4_alg».proof.Proof.Gen.ReferenceIdeal.Read
import proofs.«168494_g41042707480709_retrytranche2_1909_4_alg».proof.Proof.Gen.Pre_finite_inputs
import proofs.«168494_g41042707480709_retrytranche2_1909_4_alg».proof.Proof.KernelFrame
import proofs.«168494_g41042707480709_retrytranche2_1909_4_alg».proof.Proof.KValue
import proofs.«168494_g41042707480709_retrytranche2_1909_4_alg».proof.Proof.RefValue
import proofs.«168494_g41042707480709_retrytranche2_1909_4_alg».proof.Proof.Finite

noncomputable section

namespace Cert.Proof

open Idealize.ShloMosaic Idealize.SL.Sem

/-- The word-level kernel runs to the end and leaves its arguments as they were. -/
theorem frame_k : Cert.frame_Kernel := Cert.Kernel.FrameB.frame

/-- So does the idealized kernel. -/
theorem frame_ki : Cert.frame_KernelIdeal := fun m ρ _ => Cert.KernelIdeal.KValue.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From finite arguments both idealized programs end with the logits function of the arguments in their result. -/
theorem algebraic : Cert.algebraic_KernelIdeal_ReferenceIdeal := by
  intro m ρ m' ρ' hpre hagree
  have hfin := fun c => Cert.Lvq.Finite.real_of_fn _ _ (hpre c)
  refine ⟨fun c => Cert.Lvq.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ hfin, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v20_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
